-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x4096 : Shape := ⟨3, ![8, 512, 4096]⟩
abbrev S11008x2048 : Shape := ⟨2, ![11008, 2048]⟩
abbrev S11008x32 : Shape := ⟨2, ![11008, 32]⟩
abbrev S11008 : Shape := ⟨1, ![11008]⟩
abbrev S_ : Shape := ⟨0, ![]⟩

class Facts : Prop where
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S8x512x4096 .f32) (main_arg1 : IVec S11008x2048 32) (main_arg2 : FVec F S11008x32 .f32) (main_arg3 : FVec F S11008x32 .f32) (main_arg4 : FVec F S11008 .f32) : IVec S_ 1 :=
  let main_v0 : FVec F S8x512x4096 .f32 := Host.absf main_arg0
  let main_cst : FVec F S_ .f32 := constant S_ .f32 0x7F800000#32
  let main_v1 : FVec F S8x512x4096 .f32 := broadcastInDim S8x512x4096 ![] bcast_S_S8x512x4096 main_cst
  let main_v2 : IVec S8x512x4096 1 := cmpf .olt main_v0 main_v1
  let main_c : IVec S_ 1 := constantI S_ 1 1#1
  let main_v3 : IVec S_ 1 := (fun x v => Host.reduce IntOp.andi x v reducesTo_S8x512x4096_S_d0_1_2 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg3
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S8x512x4096 : Shape := ⟨3, ![8, 512, 4096]⟩
abbrev S11008x2048 : Shape := ⟨2, ![11008, 2048]⟩
abbrev S11008x32 : Shape := ⟨2, ![11008, 32]⟩
abbrev S11008 : Shape := ⟨1, ![11008]⟩
abbrev S4096x4096 : Shape := ⟨2, ![4096, 4096]⟩
abbrev S1x11008 : Shape := ⟨2, ![1, 11008]⟩
abbrev S4096x11008 : Shape := ⟨2, ![4096, 11008]⟩
abbrev S256x4096 : Shape := ⟨2, ![256, 4096]⟩
abbrev S128x2048 : Shape := ⟨2, ![128, 2048]⟩
abbrev S128x32 : Shape := ⟨2, ![128, 32]⟩
abbrev S1x128 : Shape := ⟨2, ![1, 128]⟩
abbrev S256x128 : Shape := ⟨2, ![256, 128]⟩
abbrev S128x2048x1 : Shape := ⟨3, ![128, 2048, 1]⟩
abbrev S128x2048x2 : Shape := ⟨3, ![128, 2048, 2]⟩
abbrev S128x4096 : Shape := ⟨2, ![128, 4096]⟩
abbrev S128x32x128 : Shape := ⟨3, ![128, 32, 128]⟩
abbrev S128x32x1 : Shape := ⟨3, ![128, 32, 1]⟩
abbrev S8x512x11008 : Shape := ⟨3, ![8, 512, 11008]⟩

abbrev nBuf : Space → Nat
  | .hbm => 9
  | .vmem => 12
  | .smem => 0
  | _ => 0

abbrev bufTy : (tb : Table) → Fin (tcTables nBuf tb) → BufTy
  | .hbm, ⟨0, _⟩ => ⟨S8x512x4096, .f32⟩
  | .hbm, ⟨1, _⟩ => ⟨S11008x2048, .i32⟩
  | .hbm, ⟨2, _⟩ => ⟨S11008x32, .f32⟩
  | .hbm, ⟨3, _⟩ => ⟨S11008x32, .f32⟩
  | .hbm, ⟨4, _⟩ => ⟨S11008, .f32⟩
  | .hbm, ⟨5, _⟩ => ⟨S4096x4096, .f32⟩
  | .hbm, ⟨6, _⟩ => ⟨S1x11008, .f32⟩
  | .hbm, ⟨7, _⟩ => ⟨S4096x11008, .f32⟩
  | .hbm, ⟨8, _⟩ => ⟨S8x512x11008, .f32⟩
  | .local _ .vmem, ⟨0, _⟩ => ⟨S256x4096, .f32⟩
  | .local _ .vmem, ⟨1, _⟩ => ⟨S256x4096, .f32⟩
  | .local _ .vmem, ⟨2, _⟩ => ⟨S128x2048, .i32⟩
  | .local _ .vmem, ⟨3, _⟩ => ⟨S128x2048, .i32⟩
  | .local _ .vmem, ⟨4, _⟩ => ⟨S128x32, .f32⟩
  | .local _ .vmem, ⟨5, _⟩ => ⟨S128x32, .f32⟩
  | .local _ .vmem, ⟨6, _⟩ => ⟨S128x32, .f32⟩
  | .local _ .vmem, ⟨7, _⟩ => ⟨S128x32, .f32⟩
  | .local _ .vmem, ⟨8, _⟩ => ⟨S1x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x512x4096_S4096x4096 : S8x512x4096.ShapeCasts S4096x4096
  shapeCasts_S11008_S1x11008 : S11008.ShapeCasts S1x11008
  inb_S128x2048_S128x2048_0_0 : ∀ a, (![0, 0] : Fin 2 → Nat) a + S128x2048.size a ≤ S128x2048.size a
  h_S128x2048 : 0 < S128x2048.numel
  shapeCasts_S128x2048_S128x2048x1 : S128x2048.ShapeCasts S128x2048x1
  concatenates_S128x2048x1_S128x2048x1_S128x2048x2_d2 : Shape.Concatenates [S128x2048x1, S128x2048x1] S128x2048x2 2
  shapeCasts_S128x2048x2_S128x4096 : S128x2048x2.ShapeCasts S128x4096
  inb_S128x32_S128x32_0_0 : ∀ a, (![0, 0] : Fin 2 → Nat) a + S128x32.size a ≤ S128x32.size a
  h_S128x32 : 0 < S128x32.numel
  shapeCasts_S128x4096_S128x32x128 : S128x4096.ShapeCasts S128x32x128
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  shapeCasts_S4096x11008_S8x512x11008 : S4096x11008.ShapeCasts S8x512x11008
  dot_S256x4096_S128x4096_S256x128_1_1_0_0_n_n_wf : DotDims.WF S256x4096 S128x4096 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S11008x2048.size a
  hwx0_1 : ∀ i : grid0.Coords, EltTy.bits .i32 = 32 ∨ (Rect.block (s := S11008x2048) S128x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S11008x32.size a
  hwx0_2 : ∀ i : grid0.Coords, EltTy.bits .f32 = 32 ∨ (Rect.block (s := S11008x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S11008x32.size a
  hwx0_3 : ∀ i : grid0.Coords, EltTy.bits .f32 = 32 ∨ (Rect.block (s := S11008x32) S128x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x11008.size a
  hwx0_4 : ∀ i : grid0.Coords, EltTy.bits .f32 = 32 ∨ (Rect.block (s := S1x11008) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S4096x11008.size a
  hwx0_5 : ∀ i : grid0.Coords, EltTy.bits .f32 = 32 ∨ (Rect.block (s := S4096x11008) S256x128.size (cc0_transform_5 i) (hinb0_5 i)).WholeWords (EltTy.packing .f32)

variable [Facts₀]

def dot_S256x4096_S128x4096_S256x128_1_1_0_0_n_n : DotDims S256x4096 S128x4096 S256x128 where
  lhsContracting := [1]
  rhsContracting := [1]
  lhsNonContracting := [0]
  rhsNonContracting := [0]
  lhsBatch := []
  rhsBatch := []
  wf := dot_S256x4096_S128x4096_S256x128_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x512x4096 : Shape := ⟨3, ![8, 512, 4096]⟩
abbrev S11008x2048 : Shape := ⟨2, ![11008, 2048]⟩
abbrev S11008x32 : Shape := ⟨2, ![11008, 32]⟩
abbrev S11008 : Shape := ⟨1, ![11008]⟩
abbrev S4096x4096 : Shape := ⟨2, ![4096, 4096]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x32x128 : Shape := ⟨3, ![11008, 32, 128]⟩
abbrev S11008x32x1 : Shape := ⟨3, ![11008, 32, 1]⟩
abbrev S4096x11008 : Shape := ⟨2, ![4096, 11008]⟩
abbrev S1x11008 : Shape := ⟨2, ![1, 11008]⟩
abbrev S8x512x11008 : Shape := ⟨3, ![8, 512, 11008]⟩

abbrev nBuf : Space → Nat
  | .hbm => 36
  | .vmem => 0
  | .smem => 0
  | _ => 0

abbrev bufTy : (tb : Table) → Fin (tcTables nBuf tb) → BufTy
  | .hbm, ⟨0, _⟩ => ⟨S8x512x4096, .f32⟩
  | .hbm, ⟨1, _⟩ => ⟨S11008x2048, .i32⟩
  | .hbm, ⟨2, _⟩ => ⟨S11008x32, .f32⟩
  | .hbm, ⟨3, _⟩ => ⟨S11008x32, .f32⟩
  | .hbm, ⟨4, _⟩ => ⟨S11008, .f32⟩
  | .hbm, ⟨5, _⟩ => ⟨S4096x4096, .f32⟩
  | .hbm, ⟨6, _⟩ => ⟨S_, .i32⟩
  | .hbm, ⟨7, _⟩ => ⟨S11008x2048, .i32⟩
  | .hbm, ⟨8, _⟩ => ⟨S11008x2048, .i32⟩
  | .hbm, ⟨9, _⟩ => ⟨S_, .i32⟩
  | .hbm, ⟨10, _⟩ => ⟨S11008x2048, .i32⟩
  | .hbm, ⟨11, _⟩ => ⟨S11008x2048, .i32⟩
  | .hbm, ⟨12, _⟩ => ⟨S_, .i32⟩
  | .hbm, ⟨13, _⟩ => ⟨S11008x2048, .i32⟩
  | .hbm, ⟨14, _⟩ => ⟨S11008x2048, .i32⟩
  | .hbm, ⟨15, _⟩ => ⟨S11008x2048x1, .i32⟩
  | .hbm, ⟨16, _⟩ => ⟨S11008x2048x1, .i32⟩
  | .hbm, ⟨17, _⟩ => ⟨S11008x2048x2, .i32⟩
  | .hbm, ⟨18, _⟩ => ⟨S11008x4096, .i32⟩
  | .hbm, ⟨19, _⟩ => ⟨S11008x4096, .f32⟩
  | .hbm, ⟨20, _⟩ => ⟨S_, .f32⟩
  | .hbm, ⟨21, _⟩ => ⟨S11008x4096, .f32⟩
  | .hbm, ⟨22, _⟩ => ⟨S11008x4096, .f32⟩
  | .hbm, ⟨23, _⟩ => ⟨S11008x32x128, .f32⟩
  | .hbm, ⟨24, _⟩ => ⟨S11008x32x1, .f32⟩
  | .hbm, ⟨25, _⟩ => ⟨S11008x32x128, .f32⟩
  | .hbm, ⟨26, _⟩ => ⟨S11008x32x128, .f32⟩
  | .hbm, ⟨27, _⟩ => ⟨S11008x32x1, .f32⟩
  | .hbm, ⟨28, _⟩ => ⟨S11008x32x128, .f32⟩
  | .hbm, ⟨29, _⟩ => ⟨S11008x32x128, .f32⟩
  | .hbm, ⟨30, _⟩ => ⟨S11008x4096, .f32⟩
  | .hbm, ⟨31, _⟩ => ⟨S4096x11008, .f32⟩
  | .hbm, ⟨32, _⟩ => ⟨S1x11008, .f32⟩
  | .hbm, ⟨33, _⟩ => ⟨S4096x11008, .f32⟩
  | .hbm, ⟨34, _⟩ => ⟨S4096x11008, .f32⟩
  | .hbm, ⟨35, _⟩ => ⟨S8x512x11008, .f32⟩
  | _, _ => ⟨S8x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  shapeCasts_S8x512x4096_S4096x4096 : S8x512x4096.ShapeCasts S4096x4096
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  bcast_S_S11008x4096 : S_.BroadcastsInDim S11008x4096 (![] : Fin 0 → Fin S11008x4096.rank)
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  shapeCasts_S4096x11008_S8x512x11008 : S4096x11008.ShapeCasts S8x512x11008
  dot_S4096x4096_S11008x4096_S4096x11008_1_1_0_0_n_n_wf : DotDims.WF S4096x4096 S11008x4096 S4096x11008 [1] [1] [0] [0] [] []

variable [Facts₀]

def dot_S4096x4096_S11008x4096_S4096x11008_1_1_0_0_n_n : DotDims S4096x4096 S11008x4096 S4096x11008 where
  lhsContracting := [1]
  rhsContracting := [1]
  lhsNonContracting := [0]
  rhsNonContracting := [0]
  lhsBatch := []
  rhsBatch := []
  wf := dot_S4096x4096_S11008x4096_S4096x11008_1_1_0_0_n_n_wf

class Facts : Prop extends Facts₀ where

variable [Facts]
-- ==== Proof.Spec.lean ====
/-
  The function both programs compute, stated once over literal shapes.

  A row of the packed weight matrix holds 2048 words; each word carries two 4-bit fields.  Position `k` of the
  unpacked row (0 ≤ k < 4096) lies in word `k / 2`: its low field when `k` is even, the field above it
  (bits 4 to 7, reached by an arithmetic shift right by 4) when `k` is odd.  The field, read as an
  integer, is turned into a real, shifted by 8, then by the group's zero point, and multiplied by the group's
  scale; a group is 128 consecutive positions, so position `k` belongs to group `k / 128`.

  With `w r k` that dequantised weight of row `r` at position `k`, the result is the matrix
  `Y n r = (∑ k, x n k · w r k) + bias r`, over the extended reals.
-/
import Idealize.ShloMosaic.PureOps.Ideal
import Idealize.ShloMosaic.Lib.ValueIdx

noncomputable section

open scoped BigOperators

namespace Cert.Dequant

open Idealize.ShloMosaic Idealize.ShloMosaic.ValueIdx

/-- The word of a packed row that holds position `k`. -/
def wordOf (k : Fin 4096) : Fin 2048 := ⟨k.val / 2, by have := k.isLt; omega⟩

/-- The group of 128 positions that position `k` belongs to. -/
def groupOf (k : Fin 4096) : Fin 32 := ⟨k.val / 128, by have := k.isLt; omega⟩

/-- The 4-bit field at position `k` of a packed row, as a 32-bit word: the low four bits of the word at an even
    position, bits 4 to 7 at an odd one. -/
def field (wrow : Fin 2048 → BitVec 32) (k : Fin 4096) : BitVec 32 :=
  if k.val % 2 = 0 then IntOp.andi (wrow (wordOf k)) 15#32
  else IntOp.andi (IntOp.shrsi .vector (wrow (wordOf k)) 4#32) 15#32

/-- The dequantised weight at position `k` of a row: `((field − 8) − zero) · scale`, zero point and scale taken
    from the position's group. -/
def weight (wrow : Fin 2048 → BitVec 32) (srow zrow : Fin 32 → EReal) (k : Fin 4096) : EReal :=
  (((FloatOps.sitofp (F := Ideal) .f32 (field wrow k) : Ideal .f32) - Ideal.ofBits .f32 0x41000000#32) - zrow (groupOf k))
    * srow (groupOf k)

/-- One entry of the result: row `n` of the activations against row `r` of the dequantised weights, plus the bias. -/
def entry (x2 : (⟨2, ![4096, 4096]⟩ : Shape).Idx → EReal) (wp : (⟨2, ![11008, 2048]⟩ : Shape).Idx → BitVec 32)
    (sc zr : (⟨2, ![11008, 32]⟩ : Shape).Idx → EReal) (bs : (⟨1, ![11008]⟩ : Shape).Idx → EReal)
    (n : Fin 4096) (r : Fin 11008) : EReal :=
  (∑ k : Fin 4096, x2 (ix2 n k) * weight (fun w => wp (ix2 r w)) (fun g => sc (ix2 r g)) (fun g => zr (ix2 r g)) k)
    + bs (ix1 r)

/-- The whole result matrix, 4096 × 11008. -/
def Y (x2 : (⟨2, ![4096, 4096]⟩ : Shape).Idx → EReal) (wp : (⟨2, ![11008, 2048]⟩ : Shape).Idx → BitVec 32)
    (sc zr : (⟨2, ![11008, 32]⟩ : Shape).Idx → EReal) (bs : (⟨1, ![11008]⟩ : Shape).Idx → EReal) :
    (⟨2, ![4096, 11008]⟩ : Shape).Idx → EReal :=
  fun j => entry x2 wp sc zr bs (j 0) (j 1)

theorem Y_apply (x2 : (⟨2, ![4096, 4096]⟩ : Shape).Idx → EReal) (wp : (⟨2, ![11008, 2048]⟩ : Shape).Idx → BitVec 32)
    (sc zr : (⟨2, ![11008, 32]⟩ : Shape).Idx → EReal) (bs : (⟨1, ![11008]⟩ : Shape).Idx → EReal)
    (n : Fin 4096) (r : Fin 11008) : Y x2 wp sc zr bs (ix2 n r) = entry x2 wp sc zr bs n r := rfl

end Cert.Dequant

end
-- ==== Proof.RefValue.lean ====
/-
  The reference, read entry by entry, is the specification's matrix `Y`.

  The reference masks and shifts the packed words, lays the two fields of every word side by side along a new
  last axis and flattens: entry (r, k) of the flattened matrix comes from word k / 2 of row r, the low field when
  k is even and the next field when k is odd.  It then converts to a real, subtracts 8, regroups the row in 32
  groups of 128 to subtract the group's zero point and multiply by its scale, and flattens again: entry (r, k)
  is `weight` at position k of row r.  The contraction over the 4096 positions and the bias broadcast along the
  rows give `entry`.
-/
import proofs.«410168_j90400471646576_1_alg».proof.Proof.Gen.ReferenceIdeal.Run
import proofs.«410168_j90400471646576_1_alg».proof.Proof.Gen.ReferenceIdeal.Read
import proofs.«410168_j90400471646576_1_alg».proof.Proof.Spec
import Idealize.ShloMosaic.Lib.KernelVsHost

noncomputable section

open scoped BigOperators

namespace Cert.Dequant.Ref

open Cert.ReferenceIdeal Cert.ReferenceIdeal.Read Idealize.ShloMosaic Idealize.ShloMosaic.ValueIdx Cert.Dequant

variable (x1 : (⟨S11008x2048, .i32⟩ : BufTy).Contents (Elt Ideal))

/-- Entry (r, k) of the interleaved integer matrix is the 4-bit field at position k of row r. -/
theorem unpacked_apply (r : Fin 11008) (k : Fin 4096) :
    val_main_v10 (F := Ideal) x1 (ix2 r k) = field (fun w => x1 (ix2 r w)) k := by
  have hk := k.isLt
  have hr := r.isLt
  rw [val_main_v10_apply]
  unfold val_main_v9 field
  by_cases h2 : k.val % 2 = 0
  · rw [if_pos h2]
    refine (concatenate_pair_apply_left (t := S11008x2048x2) (s₁ := S11008x2048x1) (s₂ := S11008x2048x1) (2 : Fin 3) _ _ _ (idx_main_v10 (ix2 r k)) rfl (ix3 r (wordOf k) (0 : Fin 1)) ?_).trans ?_
    · intro b
      match b with
      | ⟨0, _⟩ => show r.val = (r.val * 4096 + k.val) / 4096; omega
      | ⟨1, _⟩ => show k.val / 2 = (r.val * 4096 + k.val) / 2 % 2048; omega
      | ⟨2, _⟩ => show 0 = (r.val * 4096 + k.val) % 2; omega
    · rw [val_main_v7_apply, val_main_v2_apply, val_main_v1_apply, val_main_c_apply]
      have e : idx_main_v7 (ix3 r (wordOf k) (0 : Fin 1)) = ix2 r (wordOf k) := by
        funext a; match a with | ⟨0, _⟩ => rfl | ⟨1, _⟩ => rfl
      rw [e]
  · rw [if_neg h2]
    refine (concatenate_pair_apply_right (t := S11008x2048x2) (s₁ := S11008x2048x1) (s₂ := S11008x2048x1) (2 : Fin 3) _ _ _ (idx_main_v10 (ix2 r k)) rfl rfl (ix3 r (wordOf k) (0 : Fin 1)) ?_ ?_).trans ?_
    · intro b hb
      match b with
      | ⟨0, _⟩ => show r.val = (r.val * 4096 + k.val) / 4096; omega
      | ⟨1, _⟩ => show k.val / 2 = (r.val * 4096 + k.val) / 2 % 2048; omega
      | ⟨2, _⟩ => exact absurd rfl hb
    · show 0 + 1 = (r.val * 4096 + k.val) % 2; omega
    · rw [val_main_v8_apply, val_main_v6_apply, val_main_v4_apply, val_main_v5_apply, val_main_c_1_apply,
        val_main_v3_apply, val_main_c_0_apply]
      have e : idx_main_v8 (ix3 r (wordOf k) (0 : Fin 1)) = ix2 r (wordOf k) := by
        funext a; match a with | ⟨0, _⟩ => rfl | ⟨1, _⟩ => rfl
      rw [e, shrsi_unit .host .vector]

/-- Entry (r, k) after the conversion and the shift by 8. -/
theorem shifted_apply (r : Fin 11008) (k : Fin 4096) :
    val_main_v13 (F := Ideal) x1 (ix2 r k)
      = (FloatOps.sitofp (F := Ideal) .f32 (field (fun w => x1 (ix2 r w)) k) : Ideal .f32) - Ideal.ofBits .f32 0x41000000#32 := by
  rw [val_main_v13_apply, val_main_v11_apply, unpacked_apply, val_main_v12_apply, val_main_cst_apply]
  rfl

/-- Entry (r, k) of the dequantised matrix is the specification's weight. -/
theorem dequant_apply (x2 x3 : (⟨S11008x32, .f32⟩ : BufTy).Contents (Elt Ideal)) (r : Fin 11008) (k : Fin 4096) :
    val_main_v21 (F := Ideal) x1 x2 x3 (ix2 r k)
      = weight (fun w => x1 (ix2 r w)) (fun g => x2 (ix2 r g)) (fun g => x3 (ix2 r g)) k := by
  have hk := k.isLt
  have hr := r.isLt
  rw [val_main_v21_apply, val_main_v20_apply, val_main_v17_apply, val_main_v14_apply, val_main_v16_apply,
    val_main_v15_apply, val_main_v19_apply, val_main_v18_apply]
  have e1 : idx_main_v14 (idx_main_v21 (ix2 r k)) = ix2 r k := by
    funext a; apply Fin.ext
    match a with
    | ⟨0, _⟩ =>
      show (((r.val * 4096 + k.val) / 4096 * 32 + (r.val * 4096 + k.val) / 128 % 32) * 128 + (r.val * 4096 + k.val) % 128) / 4096 = r.val
      omega
    | ⟨1, _⟩ =>
      show (((r.val * 4096 + k.val) / 4096 * 32 + (r.val * 4096 + k.val) / 128 % 32) * 128 + (r.val * 4096 + k.val) % 128) % 4096 = k.val
      omega
  have e2 : idx_main_v15 (idx_main_v16 (idx_main_v21 (ix2 r k))) = ix2 r (groupOf k) := by
    funext a; apply Fin.ext
    match a with
    | ⟨0, _⟩ => show (r.val * 4096 + k.val) / 4096 = r.val; omega
    | ⟨1, _⟩ => show (r.val * 4096 + k.val) / 128 % 32 = k.val / 128; omega
  have e3 : idx_main_v18 (idx_main_v19 (idx_main_v21 (ix2 r k))) = ix2 r (groupOf k) := by
    funext a; apply Fin.ext
    match a with
    | ⟨0, _⟩ => show (r.val * 4096 + k.val) / 4096 = r.val; omega
    | ⟨1, _⟩ => show (r.val * 4096 + k.val) / 128 % 32 = k.val / 128; omega
  rw [e1, e2, e3, shifted_apply]
  rfl

/-- The reference's matrix before its last reshape is `Y` of the flattened activations. -/
theorem matrix_eq (x0 : (⟨S8x512x4096, .f32⟩ : BufTy).Contents (Elt Ideal)) (x2 x3 : (⟨S11008x32, .f32⟩ : BufTy).Contents (Elt Ideal))
    (x4 : (⟨S11008, .f32⟩ : BufTy).Contents (Elt Ideal)) :
    val_main_v25 (F := Ideal) x0 x1 x2 x3 x4 = Y (val_main_v0 (F := Ideal) x0) x1 x2 x3 x4 := by
  funext j
  obtain ⟨n, r, rfl⟩ : ∃ (n : Fin 4096) (r : Fin 11008), j = ix2 n r := ⟨j 0, j 1, eq_ix2 j⟩
  rw [Y_apply, val_main_v25_apply, val_main_v22_apply, val_main_v24_apply, val_main_v23_apply]
  unfold entry
  have eb : idx_main_v23 (idx_main_v24 (ix2 n r)) = ix1 r := by
    funext a; match a with | ⟨0, _⟩ => rfl
  rw [eb]
  show (∑ k : Fin 4096, _) + _ = (∑ k : Fin 4096, _) + _
  refine congrArg₂ (· + ·) (Finset.sum_congr rfl fun k _ => ?_) rfl
  have el : lidx_main_v22 (ix2 n r) k = ix2 n k := by
    funext a; match a with | ⟨0, _⟩ => rfl | ⟨1, _⟩ => rfl
  have er : ridx_main_v22 (ix2 n r) k = ix2 r k := by
    funext a; match a with | ⟨0, _⟩ => rfl | ⟨1, _⟩ => rfl
  rw [el, er, dequant_apply]

end Cert.Dequant.Ref

end
-- ==== Proof.KernelPayload.lean ====
/-
  What one run of the kernel body stores, entry by entry, from the blocks it loads.

  The body holds 128 rows of packed words, their 32 scales and zero points per row, 256 rows of activations and a
  128-entry slice of the bias.  It unpacks each word into two reals, lays them side by side and flattens, so that
  position k of a row comes from word k / 2 (low field for even k, next field for odd k); subtracts 8; regroups
  the 4096 positions as 32 groups of 128 to subtract the group's zero point and multiply by its scale; flattens
  again; and contracts the 256 × 4096 activations with the 128 × 4096 weights over the 4096 positions, adding the
  bias along the rows.  Entry (p, q) of the stored tile is therefore
  `(∑ k, x p k · weight q k) + bias q` with `weight` the specification's.
-/
import proofs.«410168_j90400471646576_1_alg».proof.Proof.Gen.KernelIdeal.Skeleton
import proofs.«410168_j90400471646576_1_alg».proof.Proof.Spec
import Idealize.ShloMosaic.Lib.Pipeline.Value
import Idealize.ShloMosaic.Lib.ValueLayout
import Idealize.ShloMosaic.PureOps.Ideal.Laws

noncomputable section

open scoped BigOperators

namespace Cert.Dequant.Kernel

open Cert.KernelIdeal Cert.KernelIdeal.Gen Idealize.ShloMosaic Idealize.ShloMosaic.ValueIdx Cert.Dequant

/-! ## The layout steps, read at an index -/

section Layout
variable {α : Type}

/-- Two 128 × 2048 arrays given a unit last axis, joined along it and flattened to 128 × 4096: position k of row q
    is the first array's entry at word k / 2 when k is even and the second's when k is odd. -/
theorem interleave_apply (lo hi : S128x2048.Idx → α) (h1 : S128x2048.ShapeCasts S128x2048x1)
    (hc : Shape.Concatenates [S128x2048x1, S128x2048x1] S128x2048x2 2) (h2 : S128x2048x2.ShapeCasts S128x4096)
    (q : Fin 128) (k : Fin 4096) :
    shapeCast S128x4096 (concatenate S128x2048x2 2 [⟨S128x2048x1, shapeCast S128x2048x1 lo h1⟩, ⟨S128x2048x1, shapeCast S128x2048x1 hi h1⟩] hc) h2 (ix2 q k)
      = if k.val % 2 = 0 then lo (ix2 q (wordOf k)) else hi (ix2 q (wordOf k)) := by
  have hk := k.isLt
  have hq := q.isLt
  by_cases h : k.val % 2 = 0
  · rw [if_pos h]
    refine (shapeCast_apply _ h2 (ix2 q k) (ix3 q (wordOf k) (0 : Fin 2)) ?_).trans ?_
    · rw [Shape.rowMajor_val_three, Shape.rowMajor_val_two]
      show (q.val * 2048 + k.val / 2) * 2 + 0 = q.val * 4096 + k.val
      omega
    refine (concatenate_pair_apply_left (t := S128x2048x2) (s₁ := S128x2048x1) (s₂ := S128x2048x1) (2 : Fin 3) _ _ hc
      (ix3 q (wordOf k) (0 : Fin 2)) rfl (ix3 q (wordOf k) (0 : Fin 1)) ?_).trans ?_
    · intro b
      match b with
      | ⟨0, _⟩ => rfl
      | ⟨1, _⟩ => rfl
      | ⟨2, _⟩ => rfl
    refine shapeCast_apply lo h1 _ (ix2 q (wordOf k)) ?_
    rw [Shape.rowMajor_val_three, Shape.rowMajor_val_two]
    show q.val * 2048 + k.val / 2 = (q.val * 2048 + k.val / 2) * 1 + 0
    omega
  · rw [if_neg h]
    refine (shapeCast_apply _ h2 (ix2 q k) (ix3 q (wordOf k) (1 : Fin 2)) ?_).trans ?_
    · rw [Shape.rowMajor_val_three, Shape.rowMajor_val_two]
      show (q.val * 2048 + k.val / 2) * 2 + 1 = q.val * 4096 + k.val
      omega
    refine (concatenate_pair_apply_right (t := S128x2048x2) (s₁ := S128x2048x1) (s₂ := S128x2048x1) (2 : Fin 3) _ _ hc
      (ix3 q (wordOf k) (1 : Fin 2)) rfl rfl (ix3 q (wordOf k) (0 : Fin 1)) ?_ ?_).trans ?_
    · intro b hb
      match b with
      | ⟨0, _⟩ => rfl
      | ⟨1, _⟩ => rfl
      | ⟨2, _⟩ => exact absurd rfl hb
    · rfl
    refine shapeCast_apply hi h1 _ (ix2 q (wordOf k)) ?_
    rw [Shape.rowMajor_val_three, Shape.rowMajor_val_two]
    show q.val * 2048 + k.val / 2 = (q.val * 2048 + k.val / 2) * 1 + 0
    omega

/-- A 128 × 32 array given a unit last axis and repeated 128 times along it, read at (q, g, l): the entry (q, g). -/
theorem perGroup_apply (z : S128x32.Idx → α) (hB : S128x32.ShapeCasts S128x32x1) (hC : S128x32x1.Broadcasts S128x32x128)
    (q : Fin 128) (g : Fin 32) (l : Fin 128) :
    broadcastTo S128x32x128 (shapeCast S128x32x1 z hB) hC (ix3 q g l) = z (ix2 q g) := by
  refine (broadcastTo_apply _ hC (ix3 q g l) (ix3 q g (0 : Fin 1)) fun a => ?_).trans ?_
  · match a with
    | ⟨0, _⟩ => show q.val = if (128 : Nat) = 1 then 0 else q.val; rw [if_neg (by decide)]
    | ⟨1, _⟩ => show g.val = if (32 : Nat) = 1 then 0 else g.val; rw [if_neg (by decide)]
    | ⟨2, _⟩ => show 0 = if (1 : Nat) = 1 then 0 else l.val; rw [if_pos rfl]
  refine shapeCast_apply z hB _ (ix2 q g) ?_
  rw [Shape.rowMajor_val_three, Shape.rowMajor_val_two]
  show q.val * 32 + g.val = (q.val * 32 + g.val) * 1 + 0
  omega

end Layout

/-- The regrouping: a 128 × 4096 array seen as 128 × 32 × 128, a per-group zero point subtracted and a per-group scale
    multiplied, flattened back: position k of row q meets group k / 128. -/
theorem regroup_apply (u : FVec Ideal S128x4096 .f32) (z s : FVec Ideal S128x32 .f32)
    (hA : S128x4096.ShapeCasts S128x32x128) (hB : S128x32.ShapeCasts S128x32x1) (hC : S128x32x1.Broadcasts S128x32x128)
    (hD : S128x32x128.ShapeCasts S128x4096) (q : Fin 128) (k : Fin 4096) :
    shapeCast S128x4096 (mulf (subf (shapeCast S128x32x128 u hA) (broadcastTo S128x32x128 (shapeCast S128x32x1 z hB) hC))
        (broadcastTo S128x32x128 (shapeCast S128x32x1 s hB) hC)) hD (ix2 q k)
      = (u (ix2 q k) - z (ix2 q (groupOf k))) * s (ix2 q (groupOf k)) := by
  have hk := k.isLt
  have hq := q.isLt
  refine (shapeCast_apply _ hD (ix2 q k) (ix3 q (groupOf k) (⟨k.val % 128, Nat.mod_lt _ (by decide)⟩ : Fin 128)) ?_).trans ?_
  · rw [Shape.rowMajor_val_three, Shape.rowMajor_val_two]
    show (q.val * 32 + k.val / 128) * 128 + k.val % 128 = q.val * 4096 + k.val
    omega
  have a : shapeCast S128x32x128 u hA (ix3 q (groupOf k) (⟨k.val % 128, Nat.mod_lt _ (by decide)⟩ : Fin 128)) = u (ix2 q k) := by
    refine shapeCast_apply u hA _ (ix2 q k) ?_
    rw [Shape.rowMajor_val_three, Shape.rowMajor_val_two]
    show q.val * 4096 + k.val = (q.val * 32 + k.val / 128) * 128 + k.val % 128
    omega
  show (shapeCast S128x32x128 u hA _ - broadcastTo S128x32x128 (shapeCast S128x32x1 z hB) hC _)
      * broadcastTo S128x32x128 (shapeCast S128x32x1 s hB) hC _ = _
  rw [a, perGroup_apply, perGroup_apply]

/-! ## The contraction -/

theorem lhs_axis0 (i : S256x128.Idx) (q : dot_S256x4096_S128x4096_S256x128_1_1_0_0_n_n.contr.Idx) :
    (dot_S256x4096_S128x4096_S256x128_1_1_0_0_n_n.lhsIdx i q 0).val = (i 0).val := by
  unfold DotDims.lhsIdx
  rw [dif_neg (show ¬(0 : Fin S256x4096.rank) ∈ dot_S256x4096_S128x4096_S256x128_1_1_0_0_n_n.lhsBatch by decide), dif_pos (show (0 : Fin S256x4096.rank) ∈ dot_S256x4096_S128x4096_S256x128_1_1_0_0_n_n.lhsNonContracting by decide)]
  rfl
theorem lhs_axis1 (i : S256x128.Idx) (q : dot_S256x4096_S128x4096_S256x128_1_1_0_0_n_n.contr.Idx) :
    (dot_S256x4096_S128x4096_S256x128_1_1_0_0_n_n.lhsIdx i q 1).val = (q ⟨0, by decide⟩).val :=
  dot_S256x4096_S128x4096_S256x128_1_1_0_0_n_n.lhsIdx_val_of_single rfl i q
theorem rhs_axis0 (i : S256x128.Idx) (q : dot_S256x4096_S128x4096_S256x128_1_1_0_0_n_n.contr.Idx) :
    (dot_S256x4096_S128x4096_S256x128_1_1_0_0_n_n.rhsIdx i q 0).val = (i 1).val := by
  unfold DotDims.rhsIdx
  rw [dif_neg (show ¬(0 : Fin S128x4096.rank) ∈ dot_S256x4096_S128x4096_S256x128_1_1_0_0_n_n.rhsBatch by decide), dif_pos (show (0 : Fin S128x4096.rank) ∈ dot_S256x4096_S128x4096_S256x128_1_1_0_0_n_n.rhsNonContracting by decide)]
  rfl
theorem rhs_axis1 (i : S256x128.Idx) (q : dot_S256x4096_S128x4096_S256x128_1_1_0_0_n_n.contr.Idx) :
    (dot_S256x4096_S128x4096_S256x128_1_1_0_0_n_n.rhsIdx i q 1).val = (q ⟨0, by decide⟩).val :=
  dot_S256x4096_S128x4096_S256x128_1_1_0_0_n_n.rhsIdx_val_of_single rfl i q

/-- The matrix product into a zero accumulator, entry (p, q): row p of the left operand against row q of the right,
    summed over the 4096 positions. -/
theorem contraction_apply (a : FVec Ideal S256x4096 .bf16) (b : FVec Ideal S128x4096 .bf16) (p : Fin 256) (q : Fin 128) :
    matmul dot_S256x4096_S128x4096_S256x128_1_1_0_0_n_n none a b (constant S256x128 .f32 0x00000000#32) (ix2 p q)
      = ∑ k : Fin 4096, a (ix2 p k) * b (ix2 q k) := by
  show FloatOps.matmul dot_S256x4096_S128x4096_S256x128_1_1_0_0_n_n none a b (constant S256x128 .f32 0x00000000#32) (ix2 p q) = _
  rw [Ideal.matmul_constant_zero_apply, ← Equiv.sum_comp (ValueIdx.contrEquiv1 dot_S256x4096_S128x4096_S256x128_1_1_0_0_n_n 4096 rfl rfl).symm]
  refine Finset.sum_congr rfl fun k _ => ?_
  have hk := ValueIdx.contrEquiv1_symm_val dot_S256x4096_S128x4096_S256x128_1_1_0_0_n_n 4096 rfl rfl k
  have el : dot_S256x4096_S128x4096_S256x128_1_1_0_0_n_n.lhsIdx (ix2 p q) ((ValueIdx.contrEquiv1 dot_S256x4096_S128x4096_S256x128_1_1_0_0_n_n 4096 rfl rfl).symm k) = ix2 p k := funext fun ax => Fin.ext (by
    match ax with
    | ⟨0, _⟩ => exact lhs_axis0 _ _
    | ⟨1, _⟩ => exact (lhs_axis1 _ _).trans hk)
  have er : dot_S256x4096_S128x4096_S256x128_1_1_0_0_n_n.rhsIdx (ix2 p q) ((ValueIdx.contrEquiv1 dot_S256x4096_S128x4096_S256x128_1_1_0_0_n_n 4096 rfl rfl).symm k) = ix2 q k := funext fun ax => Fin.ext (by
    match ax with
    | ⟨0, _⟩ => exact rhs_axis0 _ _
    | ⟨1, _⟩ => exact (rhs_axis1 _ _).trans hk)
  rw [el, er]

/-! ## The stored tile -/

/-- Entry (q, k) of the unpacked tile: the 4-bit field at position k of row q, as a real. -/
theorem unpackTile_apply (v0 : Vec Ideal S128x2048 .i32)
    (h1 : S128x2048.ShapeCasts S128x2048x1) (hc : Shape.Concatenates [S128x2048x1, S128x2048x1] S128x2048x2 2)
    (h2 : S128x2048x2.ShapeCasts S128x4096) (q : Fin 128) (k : Fin 4096) :
    shapeCast S128x4096 (concatenate S128x2048x2 2
        [⟨S128x2048x1, shapeCast S128x2048x1 (sitofp (F := Ideal) .f32 (andi v0 (broadcast S128x2048 15#32))) h1⟩,
         ⟨S128x2048x1, shapeCast S128x2048x1 (sitofp (F := Ideal) .f32 (andi (shrsi v0 (broadcast S128x2048 4#32)) (broadcast S128x2048 15#32))) h1⟩] hc) h2 (ix2 q k)
      = (FloatOps.sitofp (F := Ideal) .f32 (field (fun w => v0 (ix2 q w)) k) : Ideal .f32) := by
  rw [interleave_apply]
  unfold field
  by_cases h : k.val % 2 = 0
  · rw [if_pos h, if_pos h]; rfl
  · rw [if_neg h, if_neg h]; rfl

/-- Entry (q, k) of the dequantised weight tile the body builds from its loaded words, scales and zero points. -/
theorem weightTile_apply (v0 : Vec Ideal S128x2048 .i32) (v15 v16 : Vec Ideal S128x32 .f32)
    (h1 : S128x2048.ShapeCasts S128x2048x1) (hc : Shape.Concatenates [S128x2048x1, S128x2048x1] S128x2048x2 2)
    (h2 : S128x2048x2.ShapeCasts S128x4096) (hA : S128x4096.ShapeCasts S128x32x128) (hB : S128x32.ShapeCasts S128x32x1)
    (hC : S128x32x1.Broadcasts S128x32x128) (hD : S128x32x128.ShapeCasts S128x4096) (q : Fin 128) (k : Fin 4096) :
    shapeCast S128x4096 (mulf (subf (shapeCast S128x32x128
        (subf (shapeCast S128x4096 (concatenate S128x2048x2 2
            [⟨S128x2048x1, shapeCast S128x2048x1 (sitofp (F := Ideal) .f32 (andi v0 (broadcast S128x2048 15#32))) h1⟩,
             ⟨S128x2048x1, shapeCast S128x2048x1 (sitofp (F := Ideal) .f32 (andi (shrsi v0 (broadcast S128x2048 4#32)) (broadcast S128x2048 15#32))) h1⟩] hc) h2)
          (broadcast S128x4096 (Scalar.ofBits (F := Ideal) .f32 0x41000000#32))) hA)
        (broadcastTo S128x32x128 (shapeCast S128x32x1 v16 hB) hC))
        (broadcastTo S128x32x128 (shapeCast S128x32x1 v15 hB) hC)) hD (ix2 q k)
      = weight (fun w => v0 (ix2 q w)) (fun g => v15 (ix2 q g)) (fun g => v16 (ix2 q g)) k := by
  refine (regroup_apply _ v16 v15 hA hB hC hD q k).trans ?_
  unfold weight
  refine congrArg (fun a : EReal => (a - v16 (ix2 q (groupOf k))) * v15 (ix2 q (groupOf k))) ?_
  exact congrArg (fun a : EReal => a - Ideal.ofBits .f32 0x41000000#32) (unpackTile_apply v0 h1 hc h2 q k)

/-- THE PAYLOAD at entry (p, q). -/
theorem payload_apply (v0 : Vec Ideal S128x2048 .i32) (v15 v16 : Vec Ideal S128x32 .f32) (v25 : Vec Ideal S256x4096 .f32)
    (v30 : Vec Ideal S1x128 .f32) (p : Fin 256) (q : Fin 128) :
    k0_pay1 (F := Ideal) v0 v15 v16 v25 v30 (ix2 p q)
      = (∑ k : Fin 4096, v25 (ix2 p k) * weight (fun w => v0 (ix2 q w)) (fun g => v15 (ix2 q g)) (fun g => v16 (ix2 q g)) k)
        + v30 (ix2 (0 : Fin 1) q) := by
  unfold k0_pay1
  show matmul dot_S256x4096_S128x4096_S256x128_1_1_0_0_n_n none _ _ (constant S256x128 .f32 0x00000000#32) (ix2 p q) + broadcastTo S256x128 _ _ (ix2 p q) = _
  refine congrArg₂ (· + ·) ?_ ?_
  · refine (contraction_apply _ _ p q).trans (Finset.sum_congr rfl fun k _ => ?_)
    refine congrArg₂ (· * ·) ?_ ?_
    · show shapeCast S256x4096 v25 _ (ix2 p k) = _
      rw [shapeCast_self]
    · exact weightTile_apply v0 v15 v16 _ _ _ _ _ _ _ q k
  · refine (broadcastTo_1b_ab_apply _ _ p q).trans ?_
    rw [shapeCast_self]

/-- When the loaded blocks are row n of the activations and row r of the packed words, scales, zero points and bias
    of whole arrays, the stored entry (p, q) is the specification's entry (n, r). -/
theorem tile_entry (x0 : Vec Ideal S256x4096 .f32) (x1 : Vec Ideal S128x2048 .i32) (x2 x3 : Vec Ideal S128x32 .f32)
    (x4 : Vec Ideal S1x128 .f32)
    (X : (⟨2, ![4096, 4096]⟩ : Shape).Idx → EReal) (WP : (⟨2, ![11008, 2048]⟩ : Shape).Idx → BitVec 32)
    (SC ZR : (⟨2, ![11008, 32]⟩ : Shape).Idx → EReal) (bs : (⟨1, ![11008]⟩ : Shape).Idx → EReal)
    (p : Fin 256) (q : Fin 128) (n : Fin 4096) (r : Fin 11008)
    (hx : ∀ k : Fin 4096, x0 (ix2 p k) = X (ix2 n k))
    (hw : ∀ w : Fin 2048, x1 (ix2 q w) = WP (ix2 r w))
    (hs : ∀ g : Fin 32, x2 (ix2 q g) = SC (ix2 r g))
    (hz : ∀ g : Fin 32, x3 (ix2 q g) = ZR (ix2 r g))
    (hb : x4 (ix2 (0 : Fin 1) q) = bs (ix1 r)) :
    k0_pay1 (F := Ideal) x1 x2 x3 x0 x4 (ix2 p q) = entry X WP SC ZR bs n r := by
  have e1 : (fun w => x1 (ix2 q w)) = fun w => WP (ix2 r w) := funext hw
  have e2 : (fun g => x2 (ix2 q g)) = fun g => SC (ix2 r g) := funext hs
  have e3 : (fun g => x3 (ix2 q g)) = fun g => ZR (ix2 r g) := funext hz
  rw [payload_apply, hb, e1, e2, e3]
  unfold entry
  exact congrArg (fun a : EReal => a + bs (ix1 r)) (Finset.sum_congr rfl fun k _ => by rw [hx k])

end Cert.Dequant.Kernel

end
-- ==== Proof.KernelArray.lean ====
/-
  From tiles to the array: after the kernel's grid has run, its output array holds the specification's matrix `Y`.

  The grid has 16 × 86 points; point t works on row block t / 86 of the activations (256 rows) and on row block
  t % 86 of the packed words, scales, zero points and bias (128 rows), and writes tile (t / 86, t % 86) of the
  4096 × 11008 output.  Each written tile is the matching tile of `Y` (the payload lemma, the loaded blocks being
  rows of the whole arrays), and the 1376 tiles cover the output: entry (n, r) lies in the tile of point
  (n / 256) · 86 + r / 128.  The activations the kernel sees are the three-dimensional input flattened to
  4096 × 4096, and its bias the input bias given a unit leading axis.
-/
import proofs.«410168_j90400471646576_1_alg».proof.Proof.Gen.KernelIdeal.Frame
import proofs.«410168_j90400471646576_1_alg».proof.Proof.KernelPayload
import Idealize.ShloMosaic.Lib.StableHlo.Run

set_option maxRecDepth 16384

noncomputable section

open scoped BigOperators

namespace Cert.Dequant.Kernel

open Cert.KernelIdeal Cert.KernelIdeal.Gen Idealize.ShloMosaic Idealize.ShloMosaic.TcCoe Idealize.ShloMosaic.ValueIdx
open Idealize.SL.Sem Idealize.ShloMosaic.StableHlo Cert.Dequant
open Idealize.ShloMosaic.Pipeline (Dat Cfg Window)

variable (m : (ℓ : Loc nD τ sig) → Buf (Elt Ideal) ℓ) (ρ : Dev nD → PrngReg)

/-! ## The arrays the region finds -/

/-- The activations as the region finds them: the input flattened to 4096 × 4096. -/
theorem V_act (c : Dev nD) : (V m c main_v0 : S4096x4096.Idx → EReal)
    = shapeCast S4096x4096 (m ((c : Thread nD τ).loc main_arg0)) shapeCasts_S8x512x4096_S4096x4096 := by
  show StableHlo.after hostOps0 (fun b => m (c, b)) (Proc.devRef .tc main_v0) = _
  after_results
  rfl

/-- The bias as the region finds it: the input bias as one row. -/
theorem V_bias (c : Dev nD) : (V m c main_v1 : S1x11008.Idx → EReal)
    = shapeCast S1x11008 (m ((c : Thread nD τ).loc main_arg4)) shapeCasts_S11008_S1x11008 := by
  show StableHlo.after hostOps0 (fun b => m (c, b)) (Proc.devRef .tc main_v1) = _
  after_results
  rfl

/-! ## Where each point's blocks lie -/

/-- The block indices of every window at every point, in closed form: the activations and the output follow
    t / 86, the weights' data and the bias follow t % 86. -/
theorem idx_facts : ∀ t : Fin cfg0.N,
    win0_0.index t (0 : Fin 2) = t.val / 86 ∧ win0_0.index t (1 : Fin 2) = 0
    ∧ win0_1.index t (0 : Fin 2) = t.val % 86 ∧ win0_1.index t (1 : Fin 2) = 0
    ∧ win0_2.index t (0 : Fin 2) = t.val % 86 ∧ win0_2.index t (1 : Fin 2) = 0
    ∧ win0_3.index t (0 : Fin 2) = t.val % 86 ∧ win0_3.index t (1 : Fin 2) = 0
    ∧ win0_4.index t (0 : Fin 2) = 0 ∧ win0_4.index t (1 : Fin 2) = t.val % 86
    ∧ win0_5.index t (0 : Fin 2) = t.val / 86 ∧ win0_5.index t (1 : Fin 2) = t.val % 86 :=
  (by decide +kernel : ∀ t : Fin grid0.N, _)

theorem point_lt (t : Fin cfg0.N) : t.val < 1376 := lt_of_lt_of_eq t.isLt N_0

/-- The loaded blocks at a point, each at its literal type. -/
abbrev actBlk (c : Dev nD) (t : Fin cfg0.N) : Vec Ideal S256x4096 .f32 := iblk m c 0 t
abbrev wordBlk (c : Dev nD) (t : Fin cfg0.N) : Vec Ideal S128x2048 .i32 := iblk m c 1 t
abbrev scaleBlk (c : Dev nD) (t : Fin cfg0.N) : Vec Ideal S128x32 .f32 := iblk m c 2 t
abbrev zeroBlk (c : Dev nD) (t : Fin cfg0.N) : Vec Ideal S128x32 .f32 := iblk m c 3 t
abbrev biasBlk (c : Dev nD) (t : Fin cfg0.N) : Vec Ideal S1x128 .f32 := iblk m c 4 t

/-- Row p of the activations' block at point t is row (t / 86) · 256 + p of the activations. -/
theorem actBlk_apply (c : Dev nD) (t : Fin cfg0.N) (p : Fin 256) (k : Fin 4096) (n : Fin 4096)
    (hn : n.val = t.val / 86 * 256 + p.val) : actBlk m c t (ix2 p k) = V m c main_v0 (ix2 n k) := by
  obtain ⟨e0, e1, -⟩ := idx_facts t
  show V m c main_v0 (((cfg0.win 0).blk t).view.emb (ix2 p k)) = V m c main_v0 (ix2 n k)
  refine congrArg (V m c main_v0) (funext fun a => Fin.ext ?_)
  match a with
  | ⟨0, _⟩ => show win0_0.index t (0 : Fin 2) * 256 + 1 * p.val = n.val; omega
  | ⟨1, _⟩ => show win0_0.index t (1 : Fin 2) * 4096 + 1 * k.val = k.val; omega

/-- Row q of the packed words' block at point t is row (t % 86) · 128 + q. -/
theorem wordBlk_apply (c : Dev nD) (t : Fin cfg0.N) (q : Fin 128) (w : Fin 2048) (r : Fin 11008)
    (hr : r.val = t.val % 86 * 128 + q.val) : wordBlk m c t (ix2 q w) = V m c main_arg1 (ix2 r w) := by
  obtain ⟨-, -, e0, e1, -⟩ := idx_facts t
  show V m c main_arg1 (((cfg0.win 1).blk t).view.emb (ix2 q w)) = V m c main_arg1 (ix2 r w)
  refine congrArg (V m c main_arg1) (funext fun a => Fin.ext ?_)
  match a with
  | ⟨0, _⟩ => show win0_1.index t (0 : Fin 2) * 128 + 1 * q.val = r.val; omega
  | ⟨1, _⟩ => show win0_1.index t (1 : Fin 2) * 2048 + 1 * w.val = w.val; omega

/-- Row q of the scales' block at point t is row (t % 86) · 128 + q. -/
theorem scaleBlk_apply (c : Dev nD) (t : Fin cfg0.N) (q : Fin 128) (g : Fin 32) (r : Fin 11008)
    (hr : r.val = t.val % 86 * 128 + q.val) : scaleBlk m c t (ix2 q g) = V m c main_arg2 (ix2 r g) := by
  obtain ⟨-, -, -, -, e0, e1, -⟩ := idx_facts t
  show V m c main_arg2 (((cfg0.win 2).blk t).view.emb (ix2 q g)) = V m c main_arg2 (ix2 r g)
  refine congrArg (V m c main_arg2) (funext fun a => Fin.ext ?_)
  match a with
  | ⟨0, _⟩ => show win0_2.index t (0 : Fin 2) * 128 + 1 * q.val = r.val; omega
  | ⟨1, _⟩ => show win0_2.index t (1 : Fin 2) * 32 + 1 * g.val = g.val; omega

/-- Row q of the zero points' block at point t is row (t % 86) · 128 + q. -/
theorem zeroBlk_apply (c : Dev nD) (t : Fin cfg0.N) (q : Fin 128) (g : Fin 32) (r : Fin 11008)
    (hr : r.val = t.val % 86 * 128 + q.val) : zeroBlk m c t (ix2 q g) = V m c main_arg3 (ix2 r g) := by
  obtain ⟨-, -, -, -, -, -, e0, e1, -⟩ := idx_facts t
  show V m c main_arg3 (((cfg0.win 3).blk t).view.emb (ix2 q g)) = V m c main_arg3 (ix2 r g)
  refine congrArg (V m c main_arg3) (funext fun a => Fin.ext ?_)
  match a with
  | ⟨0, _⟩ => show win0_3.index t (0 : Fin 2) * 128 + 1 * q.val = r.val; omega
  | ⟨1, _⟩ => show win0_3.index t (1 : Fin 2) * 32 + 1 * g.val = g.val; omega

/-- Entry q of the bias block at point t is entry (t % 86) · 128 + q of the bias row. -/
theorem biasBlk_apply (c : Dev nD) (t : Fin cfg0.N) (q : Fin 128) (r : Fin 11008)
    (hr : r.val = t.val % 86 * 128 + q.val) : biasBlk m c t (ix2 (0 : Fin 1) q) = V m c main_v1 (ix2 (0 : Fin 1) r) := by
  obtain ⟨-, -, -, -, -, -, -, -, e0, e1, -⟩ := idx_facts t
  show V m c main_v1 (((cfg0.win 4).blk t).view.emb (ix2 (0 : Fin 1) q)) = V m c main_v1 (ix2 (0 : Fin 1) r)
  refine congrArg (V m c main_v1) (funext fun a => Fin.ext ?_)
  match a with
  | ⟨0, _⟩ => show win0_4.index t (0 : Fin 2) * 1 + 1 * 0 = 0; omega
  | ⟨1, _⟩ => show win0_4.index t (1 : Fin 2) * 128 + 1 * q.val = r.val; omega

/-! ## What a point writes back -/

theorem hz : (![0, 0] : Fin 2 → Nat) = fun _ => 0 := funext fun a => by fin_cases a <;> rfl

/-- The matrix the output array will hold, over the arrays as the region finds them. -/
abbrev Yfound (c : Dev nD) : S4096x11008.Idx → EReal :=
  Y (V m c main_v0) (V m c main_arg1) (V m c main_arg2) (V m c main_arg3) (fun i => V m c main_v1 (ix2 (0 : Fin 1) (i 0)))

/-- What point t writes back is tile t of that matrix. -/
theorem flushed_eq (c : Dev nD) (t : Fin cfg0.N) :
    (dats m 0 c).flushed 5 t = ((cfg0.win 5).blk t).view.read (Elt Ideal) (Yfound m c) := by
  show (cfg0.win 5).cut (grid0.coords t) ((dats m 0 c).after 5 t) = _
  rw [after0_5]
  unfold out0_5
  rw [View.canon_unit_zero hz]
  simp only [View.ld_unit_zero (S := S128x2048) hz, View.ld_unit_zero (S := S128x32) hz,
    View.ld_unit_zero (S := S256x4096) hz, View.ld_unit_zero (S := S1x128) hz]
  have ht := point_lt t
  obtain ⟨-, -, -, -, -, -, -, -, -, -, e0, e1⟩ := idx_facts t
  funext y
  have hp : (y 0).val < 256 := (y 0).isLt
  have hq : (y 1).val < 128 := (y 1).isLt
  show k0_pay1 (F := Ideal) (wordBlk m c t) (scaleBlk m c t) (zeroBlk m c t) (actBlk m c t) (biasBlk m c t)
      ((cfg0.win 5).xinj (grid0.coords t) y) = Yfound m c (((cfg0.win 5).blk t).view.emb y)
  have ex : (cfg0.win 5).xinj (grid0.coords t) y = ix2 (⟨(y 0).val, hp⟩ : Fin 256) (⟨(y 1).val, hq⟩ : Fin 128) :=
    funext fun a => match a with | ⟨0, _⟩ => rfl | ⟨1, _⟩ => rfl
  have ey : ((cfg0.win 5).blk t).view.emb y
      = ix2 (⟨t.val / 86 * 256 + (y 0).val, by omega⟩ : Fin 4096) (⟨t.val % 86 * 128 + (y 1).val, by omega⟩ : Fin 11008) :=
    funext fun a => Fin.ext (by
      match a with
      | ⟨0, _⟩ => show win0_5.index t (0 : Fin 2) * 256 + 1 * (y 0).val = t.val / 86 * 256 + (y 0).val; omega
      | ⟨1, _⟩ => show win0_5.index t (1 : Fin 2) * 128 + 1 * (y 1).val = t.val % 86 * 128 + (y 1).val; omega)
  rw [ex, ey]
  refine (tile_entry (actBlk m c t) (wordBlk m c t) (scaleBlk m c t) (zeroBlk m c t) (biasBlk m c t)
    (V m c main_v0) (V m c main_arg1) (V m c main_arg2) (V m c main_arg3) (fun i => V m c main_v1 (ix2 (0 : Fin 1) (i 0)))
    (⟨(y 0).val, hp⟩ : Fin 256) (⟨(y 1).val, hq⟩ : Fin 128)
    (⟨t.val / 86 * 256 + (y 0).val, by omega⟩ : Fin 4096) (⟨t.val % 86 * 128 + (y 1).val, by omega⟩ : Fin 11008)
    (fun k => actBlk_apply m c t _ k _ rfl) (fun w => wordBlk_apply m c t _ w _ rfl)
    (fun g => scaleBlk_apply m c t _ g _ rfl) (fun g => zeroBlk_apply m c t _ g _ rfl)
    (biasBlk_apply m c t _ _ rfl)).trans ?_
  rfl

/-! ## The tiles cover the output -/

/-- An entry of the output lies in point t's tile iff each coordinate lies in the tile's range on its axis. -/
theorem mem_blk (t : Fin cfg0.N) (i : S4096x11008.Idx) :
    i ∈ ((cfg0.win 5).blk t).view.set ↔ ∀ a : Fin 2, win0_5.index t a * S256x128.size a ≤ (i a).val
      ∧ (i a).val < win0_5.index t a * S256x128.size a + S256x128.size a := by
  show i ∈ ((View.whole main_v2).slice (win0_5.rect t)).set ↔ _
  rw [View.set_slice_whole, Rect.mem_set_unit]
  exact Iff.rfl

/-- Entry (n, r) lies in the tile of point (n / 256) · 86 + r / 128. -/
theorem cover (i : S4096x11008.Idx) :
    ∃ t : Fin cfg0.N, (cfg0.win 5).flush t = true ∧ i ∈ ((cfg0.win 5).blk t).view.set := by
  have h0 : (i 0).val < 4096 := (i 0).isLt
  have h1 : (i 1).val < 11008 := (i 1).isLt
  have hN : cfg0.N = 1376 := N_0
  obtain ⟨t, ht⟩ : ∃ t : Fin cfg0.N, t.val = (i 0).val / 256 * 86 + (i 1).val / 128 :=
    ⟨⟨(i 0).val / 256 * 86 + (i 1).val / 128, by omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 128 ≤ (i 1).val ∧ (i 1).val < win0_5.index t (1 : Fin 2) * 128 + 128
    omega

/-- The output array after the grid. -/
theorem final (c : Dev nD) : (dats m 0 c).arrAt 5 cfg0.N = Yfound m c :=
  (dats m 0 c).arrAt_eq_of_cover 5 (Yfound m c) (fun t _ => flushed_eq m c t) cover

end Cert.Dequant.Kernel

end
-- ==== Proof.KernelRun.lean ====
/-
  The idealized kernel's run, read: the result is `Y` of the launched arguments, given the shape 8 × 512 × 11008.

  The output array of the grid holds `Y` over the arrays the region found (the flattened activations, the
  bias as one row); those are the launched arguments reshaped, and a bias row read at (0, r) is the bias at r.
  The one operation after the region reshapes the 4096 × 11008 matrix to the result's shape.
-/
import proofs.«410168_j90400471646576_1_alg».proof.Proof.KernelArray

set_option maxRecDepth 16384

noncomputable section

open scoped BigOperators

namespace Cert.Dequant.Kernel

open Cert.KernelIdeal Cert.KernelIdeal.Gen Idealize.ShloMosaic Idealize.ShloMosaic.TcCoe Idealize.ShloMosaic.ValueIdx
open Idealize.SL.Sem Idealize.ShloMosaic.StableHlo Cert.Dequant
open Idealize.ShloMosaic.Pipeline (Dat Cfg Window)

variable (m : (ℓ : Loc nD τ sig) → Buf (Elt Ideal) ℓ) (ρ : Dev nD → PrngReg)

/-- The specification's matrix over the launched arguments. -/
abbrev Ylaunched (c : Dev nD) : S4096x11008.Idx → EReal :=
  Y (shapeCast S4096x4096 (m ((c : Thread nD τ).loc main_arg0)) shapeCasts_S8x512x4096_S4096x4096)
    (m ((c : Thread nD τ).loc main_arg1)) (m ((c : Thread nD τ).loc main_arg2)) (m ((c : Thread nD τ).loc main_arg3))
    (m ((c : Thread nD τ).loc main_arg4))

/-- The bias row the region finds, read at (0, r), is the launched bias at r. -/
theorem bias_row (c : Dev nD) :
    (fun i : S11008.Idx => V m c main_v1 (ix2 (0 : Fin 1) (i 0))) = m ((c : Thread nD τ).loc main_arg4) := by
  funext i
  rw [V_bias]
  refine (shapeCast_a_1a_apply _ shapeCasts_S11008_S1x11008 (0 : Fin 1) (i 0)).trans ?_
  exact congrArg (m ((c : Thread nD τ).loc main_arg4)) (eq_ix1 i).symm

/-- The matrix over the arrays the region found is the matrix over the launched arguments. -/
theorem Yfound_eq (c : Dev nD) : Yfound m c = Ylaunched m c := by
  show Y (V m c main_v0) (V m c main_arg1) (V m c main_arg2) (V m c main_arg3)
      (fun i : S11008.Idx => V m c main_v1 (ix2 (0 : Fin 1) (i 0))) = _
  rw [bias_row, V_act, V_main_arg1, V_main_arg2, V_main_arg3]

/-- The result buffer after the reshape that follows the region. -/
theorem result_eq (c : Dev nD) :
    Pipeline.afterTail₀ cfgs (dats m) 0 (V0 m) [hostOps1] c main_v3
      = shapeCast S8x512x11008 (Ylaunched m c) shapeCasts_S4096x11008_S8x512x11008 := by
  unfold Pipeline.afterTail₀
  show StableHlo.after hostOps1 _ (Proc.devRef .tc main_v3) = _
  after_results
  rw [(Pipeline.withArrays_arr spec0 launch0.win.arr_inj c _ _ 5).trans ((final m c).trans (Yfound_eq m c))]
  rfl

/-- Every weakly fair execution of the idealized kernel terminates with the result at `Y` of the launched arguments,
    reshaped, and the arguments unchanged. -/
theorem run : θ_run defs (onTc (τ := τ) (main (F := Ideal))) ⟨m, fun _ => 0, ρ⟩ fun r => ∀ c : Dev nD,
      r.2.mem ((c.tc : Thread nD τ).loc main_v3) = shapeCast S8x512x11008 (Ylaunched m c) shapeCasts_S4096x11008_S8x512x11008
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.Dequant.Kernel

end
-- ==== Proof.lean ====
/-
  An int4-dequantising matrix product against its jnp reference, over the extended reals.

  Both programs take activations x (8 × 512 × 4096), packed weights (11008 × 2048 words, two 4-bit fields a word),
  per-group scales and zero points (11008 × 32, a group being 128 consecutive positions of a row) and a bias
  (11008).  Both flatten x to 4096 × 4096, unpack row r of the weights to 4096 integers (position k from word k / 2:
  the low field for even k, the field above it for odd k), form
      w r k = ((field − 8) − zero r (k / 128)) · scale r (k / 128),
  and produce  Y n r = (∑ k, x n k · w r k) + bias r,  reshaped to 8 × 512 × 11008.

  The kernel does this tile by tile on a 16 × 86 grid (256 rows of x against 128 rows of weights per point), casting
  both operands of the product to bf16 first, which at the ideal instance changes nothing; the reference does it on
  whole arrays.  The two differ only in where the integer-to-real conversion sits relative to the interleaving, in the
  spelling of the unit axes, and in the tiling, none of which changes an entry.  No law that needs finiteness is used:
  the two sides are the same sums of the same products, so the precondition is never opened.

  `Spec` states Y; `RefValue` reads the reference as Y; `KernelPayload` reads one stored tile entry; `KernelArray`
  goes from the tiles to the array; `KernelRun` adds the reshape after the grid.
-/
import proofs.«410168_j90400471646576_1_alg».proof.Defs
import proofs.«410168_j90400471646576_1_alg».proof.Proof.Gen.Kernel
import proofs.«410168_j90400471646576_1_alg».proof.Proof.Gen.Kernel.Skeleton
import proofs.«410168_j90400471646576_1_alg».proof.Proof.Gen.Kernel.Launch
import proofs.«410168_j90400471646576_1_alg».proof.Proof.Gen.Kernel.Points
import proofs.«410168_j90400471646576_1_alg».proof.Proof.Gen.Kernel.Frame
import proofs.«410168_j90400471646576_1_alg».proof.Proof.Gen.KernelIdeal
import proofs.«410168_j90400471646576_1_alg».proof.Proof.Gen.KernelIdeal.Skeleton
import proofs.«410168_j90400471646576_1_alg».proof.Proof.Gen.KernelIdeal.Launch
import proofs.«410168_j90400471646576_1_alg».proof.Proof.Gen.KernelIdeal.Points
import proofs.«410168_j90400471646576_1_alg».proof.Proof.Gen.KernelIdeal.Frame
import proofs.«410168_j90400471646576_1_alg».proof.Proof.Gen.ReferenceIdeal
import proofs.«410168_j90400471646576_1_alg».proof.Proof.Gen.ReferenceIdeal.Run
import proofs.«410168_j90400471646576_1_alg».proof.Proof.Gen.ReferenceIdeal.Read
import proofs.«410168_j90400471646576_1_alg».proof.Proof.Gen.Pre_finite_inputs
import proofs.«410168_j90400471646576_1_alg».proof.Proof.RefValue
import proofs.«410168_j90400471646576_1_alg».proof.Proof.KernelRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the same matrix Y of arguments that agree, under the same final reshape. -/
theorem algebraic : Cert.algebraic_KernelIdeal_ReferenceIdeal := by
  intro m ρ m' ρ' _ hagree
  refine ⟨_, Cert.Dequant.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq]
  unfold Cert.ReferenceIdeal.Read.val_main_v26
  rw [Cert.Dequant.Ref.matrix_eq]
  unfold Cert.ReferenceIdeal.Read.val_main_v0
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
